-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1000 : S_.BroadcastsInDim S4096x1000 (![] : Fin 0 → Fin S4096x1000.rank)
  reducesTo_S4096x1000_S_d0_1 : S4096x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S4096x1000 .f32) (main_arg6 : FVec F S1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1000 .f32 := Host.absf main_arg5
  let main_cst_8 : FVec F S_ .f32 := constant S_ .f32 0x7F800000#32
  let main_v25 : FVec F S4096x1000 .f32 := broadcastInDim S4096x1000 ![] bcast_S_S4096x1000 main_cst_8
  let main_v26 : IVec S4096x1000 1 := cmpf .olt main_v24 main_v25
  let main_c_9 : IVec S_ 1 := constantI S_ 1 1#1
  let main_v27 : IVec S_ 1 := (fun x v => Host.reduce IntOp.andi x v reducesTo_S4096x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x1024 .f32) (main_arg1 : FVec F S1024x4096 .f32) (main_arg2 : FVec F S4096 .f32) (main_arg3 : FVec F S4096x4096 .f32) (main_arg4 : FVec F S4096 .f32) (main_arg5 : FVec F S4096x1000 .f32) (main_arg6 : FVec F S1000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S512x1024 : Shape := ⟨2, ![512, 1024]⟩
abbrev S512x4096 : Shape := ⟨2, ![512, 4096]⟩
abbrev S1x1024 : Shape := ⟨2, ![1, 1024]⟩
abbrev S1024x1024 : Shape := ⟨2, ![1024, 1024]⟩
abbrev S1x1000 : Shape := ⟨2, ![1, 1000]⟩
abbrev S1024x1000 : Shape := ⟨2, ![1024, 1000]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S1x4096, .f32⟩
  | .hbm, ⟨8, _⟩ => ⟨S4096x4096, .bf16⟩
  | .hbm, ⟨9, _⟩ => ⟨S1x4096, .f32⟩
  | .hbm, ⟨10, _⟩ => ⟨S4096x4096, .bf16⟩
  | .hbm, ⟨11, _⟩ => ⟨S1x1000, .f32⟩
  | .hbm, ⟨12, _⟩ => ⟨S4096x1000, .f32⟩
  | .local _ .vmem, ⟨0, _⟩ => ⟨S512x1024, .f32⟩
  | .local _ .vmem, ⟨1, _⟩ => ⟨S512x1024, .f32⟩
  | .local _ .vmem, ⟨2, _⟩ => ⟨S1024x4096, .f32⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1024x4096, .bf16⟩
  | .local _ .vmem, ⟨8, _⟩ => ⟨S4096x1024, .f32⟩
  | .local _ .vmem, ⟨9, _⟩ => ⟨S4096x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x4096, .bf16⟩
  | .local _ .vmem, ⟨15, _⟩ => ⟨S1024x4096, .bf16⟩
  | .local _ .vmem, ⟨16, _⟩ => ⟨S4096x1000, .f32⟩
  | .local _ .vmem, ⟨17, _⟩ => ⟨S1x1000, .f32⟩
  | .local _ .vmem, ⟨18, _⟩ => ⟨S1024x1000, .f32⟩
  | .local _ .vmem, ⟨19, _⟩ => ⟨S1024x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S4096x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1024x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1000_S1x1000 : S1000.ShapeCasts S1x1000
  inb_S4096x1000_S4096x1000_0_0 : ∀ a, (![0, 0] : Fin 2 → Nat) a + S4096x1000.size a ≤ S4096x1000.size a
  h_S4096x1000 : 0 < S4096x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S512x1024_S1024x4096_S512x4096_1_0_0_1_n_n_wf : DotDims.WF S512x1024 S1024x4096 S512x4096 [1] [0] [0] [1] [] []
  dot_S1024x4096_S4096x1024_S1024x1024_1_0_0_1_n_n_wf : DotDims.WF S1024x4096 S4096x1024 S1024x1024 [1] [0] [0] [1] [] []
  dot_S1024x4096_S4096x1000_S1024x1000_1_0_0_1_n_n_wf : DotDims.WF S1024x4096 S4096x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .f32 = 32 ∨ (Rect.block (s := S4096x4096) S4096x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .bf16 = 32 ∨ (Rect.block (s := S4096x4096) S1024x4096.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4096x1000.size a ≤ S4096x1000.size a
  hwx2_1 : ∀ i : grid2.Coords, EltTy.bits .f32 = 32 ∨ (Rect.block (s := S4096x1000) S4096x1000.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1000.size a ≤ S4096x1000.size a
  hwx2_3 : ∀ i : grid2.Coords, EltTy.bits .f32 = 32 ∨ (Rect.block (s := S4096x1000) S1024x1000.size (cc2_transform_3 i) (hinb2_3 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x4096_S4096x1000_S1024x1000_1_0_0_1_n_n : DotDims S1024x4096 S4096x1000 S1024x1000 where
  lhsContracting := [1]
  rhsContracting := [0]
  lhsNonContracting := [0]
  rhsNonContracting := [1]
  lhsBatch := []
  rhsBatch := []
  wf := dot_S1024x4096_S4096x1000_S1024x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S4096x1000.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1000.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S_ : Shape := ⟨0, ![]⟩
abbrev S1x1000 : Shape := ⟨2, ![1, 1000]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1000, .f32⟩
  | .hbm, ⟨22, _⟩ => ⟨S1x1000, .f32⟩
  | .hbm, ⟨23, _⟩ => ⟨S4096x1000, .f32⟩
  | .hbm, ⟨24, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Dense.lean ====
/-
  One dense layer, index by index, on the extended reals: the row-by-column product plus the bias row,
  optionally followed by the maximum with zero; and what a kernel body that computes it leaves.
-/
import Idealize.ShloMosaic.PureOps.Ideal.Laws
import Idealize.ShloMosaic.Lib.ValueIdx
import Idealize.ShloMosaic.Lib.Pipeline.Value
import proofs.«140842_g84026740179090_cont_9to1_m_1088_17_alg».proof.Proof.LibPlainDot

noncomputable section

open scoped BigOperators

namespace Cert.Dense
open Idealize.ShloMosaic Idealize.ShloMosaic.ValueIdx Idealize.ShloMosaic.PlainDot

variable {M K N : Nat}

/-- `x · w + b` at (p, q): the sum over κ of x (p, κ) * w (κ, q), plus b (0, q); the bias is held as a 1×N row. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ κ : Fin K, x (ix2 (i 0) κ) * w (ix2 κ (i 1))) + b (ix2 0 (i 1))

/-- The same followed by the maximum with zero (the zero kept as the f32 word it is printed as). -/
def affineRelu (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (affine x w b i) (Ideal.ofBits .f32 0x00000000#32)

/-- A 1×N row, cast to its own shape and broadcast over M rows, read at (p, q), is the row at (0, q). -/
theorem bias_row_apply (b : (⟨2, ![1, N]⟩ : Shape).Idx → EReal)
    (hsc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hsc) hb (ix2 p q) = b (ix2 0 q) := by
  rw [shapeCast_self]
  refine broadcastTo_apply b hb (ix2 p q) (ix2 0 q) ?_
  intro a
  match a with
  | ⟨0, _⟩ => rfl
  | ⟨1, _⟩ =>
    show q.val = if N = 1 then 0 else q.val
    split_ifs with h
    · subst h; exact Fin.val_eq_zero q
    · rfl

/-- A plain matmul into the zero accumulator plus the broadcast bias row is `affine`. -/
theorem matmul_add_bias {φ₁ φ₂ : FTy} (d : DotDims ⟨2, ![M, K]⟩ ⟨2, ![K, N]⟩ ⟨2, ![M, N]⟩) (hd : IsPlain d)
    (l : FVec Ideal ⟨2, ![M, K]⟩ φ₁) (r : FVec Ideal ⟨2, ![K, N]⟩ φ₂) (b : FVec Ideal ⟨2, ![1, N]⟩ .f32)
    (hsc : (⟨2, ![1, N]⟩ : Shape).ShapeCasts ⟨2, ![1, N]⟩) (hb : (⟨2, ![1, N]⟩ : Shape).Broadcasts ⟨2, ![M, N]⟩) :
    addf (matmul d none l r (constant ⟨2, ![M, N]⟩ .f32 0x00000000#32))
      (broadcastTo ⟨2, ![M, N]⟩ (shapeCast ⟨2, ![1, N]⟩ b hsc) hb) = affine l r b := by
  funext i
  obtain ⟨p, q, rfl⟩ : ∃ (p : Fin M) (q : Fin N), i = ix2 p q := ⟨i 0, i 1, eq_ix2 i⟩
  show FloatOps.matmul d none l r (constant ⟨2, ![M, N]⟩ .f32 0x00000000#32) (ix2 p q)
      + broadcastTo ⟨2, ![M, N]⟩ (shapeCast ⟨2, ![1, N]⟩ b hsc) hb (ix2 p q) = _
  rw [matmul_zero_plain d hd, bias_row_apply]
  rfl

/-- The host's form: a plain dot_general plus a bias array `B` that at (p, q) is the row at (0, q). -/
theorem dotGeneral_add_bias {φ₁ φ₂ : FTy} (d : DotDims ⟨2, ![M, K]⟩ ⟨2, ![K, N]⟩ ⟨2, ![M, N]⟩) (hd : IsPlain d)
    (l : FVec Ideal ⟨2, ![M, K]⟩ φ₁) (r : FVec Ideal ⟨2, ![K, N]⟩ φ₂) (b : FVec Ideal ⟨2, ![1, N]⟩ .f32)
    (B : FVec Ideal ⟨2, ![M, N]⟩ .f32) (hB : ∀ (p : Fin M) (q : Fin N), B (ix2 p q) = b (ix2 0 q)) :
    addf (Host.dotGeneral d none l r) B = affine l r b := by
  funext i
  obtain ⟨p, q, rfl⟩ : ∃ (p : Fin M) (q : Fin N), i = ix2 p q := ⟨i 0, i 1, eq_ix2 i⟩
  show FloatOps.dotGeneral d none .single l r (ix2 p q) + B (ix2 p q) = _
  rw [dotGeneral_plain d hd, hB]
  rfl

/-- A block of a dense layer is the dense layer of blocks: if, through an embedding `e` of the output block's indices
    into the output array's, the left block's row p is the left array's row `e (p, q) 0`, the right block's column q the
    right array's column `e (p, q) 1`, and the bias block's entry q the bias row's entry `e (p, q) 1`, then the layer of
    the blocks at an index is the layer of the arrays at the embedded index. -/
theorem affine_blocks {M' N' : Nat}
    (X : (⟨2, ![M, K]⟩ : Shape).Idx → EReal) (W : (⟨2, ![K, N]⟩ : Shape).Idx → EReal) (b : (⟨2, ![1, N]⟩ : Shape).Idx → EReal)
    (x0 : (⟨2, ![M', K]⟩ : Shape).Idx → EReal) (x1 : (⟨2, ![K, N']⟩ : Shape).Idx → EReal) (x2 : (⟨2, ![1, N']⟩ : Shape).Idx → EReal)
    (e : (⟨2, ![M', N']⟩ : Shape).Idx → (⟨2, ![M, N]⟩ : Shape).Idx)
    (h0 : ∀ (p : Fin M') (q : Fin N') (κ : Fin K), x0 (ix2 p κ) = X (ix2 (e (ix2 p q) 0) κ))
    (h1 : ∀ (p : Fin M') (q : Fin N') (κ : Fin K), x1 (ix2 κ q) = W (ix2 κ (e (ix2 p q) 1)))
    (h2 : ∀ (p : Fin M') (q : Fin N'), x2 (ix2 0 q) = b (ix2 0 (e (ix2 p q) 1)))
    (j : (⟨2, ![M', N']⟩ : Shape).Idx) : affine x0 x1 x2 j = affine X W b (e j) := by
  obtain ⟨p, q, rfl⟩ : ∃ (p : Fin M') (q : Fin N'), j = ix2 p q := ⟨j 0, j 1, eq_ix2 j⟩
  show (∑ κ : Fin K, x0 (ix2 p κ) * x1 (ix2 κ q)) + x2 (ix2 0 q)
      = (∑ κ : Fin K, X (ix2 (e (ix2 p q) 0) κ) * W (ix2 κ (e (ix2 p q) 1))) + b (ix2 0 (e (ix2 p q) 1))
  rw [h2 p q]
  exact congrArg (· + b (ix2 0 (e (ix2 p q) 1))) (Finset.sum_congr rfl fun κ _ => by rw [h0 p q κ, h1 p q κ])

/-- The same with the maximum with zero after it. -/
theorem affineRelu_blocks {M' N' : Nat}
    (X : (⟨2, ![M, K]⟩ : Shape).Idx → EReal) (W : (⟨2, ![K, N]⟩ : Shape).Idx → EReal) (b : (⟨2, ![1, N]⟩ : Shape).Idx → EReal)
    (x0 : (⟨2, ![M', K]⟩ : Shape).Idx → EReal) (x1 : (⟨2, ![K, N']⟩ : Shape).Idx → EReal) (x2 : (⟨2, ![1, N']⟩ : Shape).Idx → EReal)
    (e : (⟨2, ![M', N']⟩ : Shape).Idx → (⟨2, ![M, N]⟩ : Shape).Idx)
    (h0 : ∀ (p : Fin M') (q : Fin N') (κ : Fin K), x0 (ix2 p κ) = X (ix2 (e (ix2 p q) 0) κ))
    (h1 : ∀ (p : Fin M') (q : Fin N') (κ : Fin K), x1 (ix2 κ q) = W (ix2 κ (e (ix2 p q) 1)))
    (h2 : ∀ (p : Fin M') (q : Fin N'), x2 (ix2 0 q) = b (ix2 0 (e (ix2 p q) 1)))
    (j : (⟨2, ![M', N']⟩ : Shape).Idx) : affineRelu x0 x1 x2 j = affineRelu X W b (e j) :=
  congrArg (max · (Ideal.ofBits .f32 0x00000000#32)) (affine_blocks X W b x0 x1 x2 e h0 h1 h2 j)

end Cert.Dense

end
-- ==== Proof.Layer1.lean ====
/-
  The first kernel launch, read as a value: whatever the buffers hold when the region is entered, the array it writes
  ends holding the dense layer max (x · w + b, 0) of the three arrays it reads.

  The grid is 1 × 8. At point t the output block is rows 512·t … 512·t + 511 and all 4096 columns; the left block is
  the same rows of the left array with the whole contracted axis, the right block the whole right array, the bias block
  the whole bias row. So block t of the output is the layer of the blocks, which is the layer of the arrays read through
  the output block's embedding; the eight blocks cover the array.
-/
import proofs.«140842_g84026740179090_cont_9to1_m_1088_17_alg».proof.Proof.Gen.KernelIdeal.Frame
import proofs.«140842_g84026740179090_cont_9to1_m_1088_17_alg».proof.Proof.Dense
import Idealize.ShloMosaic.Lib.Pipeline.Value

set_option maxRecDepth 16384

noncomputable section

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The three arrays the region reads, at their literal types. -/
abbrev lhs (c : Dev nD) : S4096x1024.Idx → EReal := V c main_arg0
abbrev rhs (c : Dev nD) : S1024x4096.Idx → EReal := V c main_arg1
abbrev bias (c : Dev nD) : S1x4096.Idx → EReal := V c main_v0

/-- What the output array ends holding. -/
abbrev layer (c : Dev nD) : S4096x4096.Idx → EReal :=
  affineRelu (M := 4096) (K := 1024) (N := 4096) (lhs V c) (rhs V c) (bias V c)

theorem hz : (![0, 0] : Fin 2 → Nat) = fun _ => 0 := funext fun a => by fin_cases a <;> rfl

theorem plain : PlainDot.IsPlain dot_S512x1024_S1024x4096_S512x4096_1_0_0_1_n_n := ⟨rfl, rfl, rfl, rfl, rfl, rfl⟩

/-- The body's stored value is the dense layer of the blocks it loads: the format changes are the identity on the
    extended reals, the matmul into zero plus the broadcast bias row is the affine map, then the maximum with zero. -/
theorem pay (x0 : Vec Ideal S512x1024 .f32) (x1 : Vec Ideal S1024x4096 .f32) (x2 : Vec Ideal S1x4096 .f32) :
    k0_pay1 (F := Ideal) x0 x1 x2 = affineRelu (M := 512) (K := 1024) (N := 4096) x0 x1 x2 :=
  congrArg (fun v : S512x4096.Idx → EReal => fun i => max (v i) (Ideal.ofBits .f32 0x00000000#32))
    (matmul_add_bias dot_S512x1024_S1024x4096_S512x4096_1_0_0_1_n_n plain x0 x1 x2
      shapeCasts_S1x4096_S1x4096 broadcasts_S1x4096_S512x4096)

/-- The index maps over the grid: the left block moves with the output's row block and sits at column block 0, the
    right block and the bias block sit at row block 0 and move with the output's column block (which is always 0),
    and the output's row block is the point itself. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) = 0 :=
  (by decide +kernel : ∀ t : Fin grid0.N, _)

/-- Every row block of the output is some point's. -/
theorem idx_onto : ∀ (q0 : Fin 8), ∃ t : Fin cfg0.N, win0_3.index t = ![q0.val, 0] :=
  (by decide +kernel : ∀ (q0 : Fin 8), ∃ t : Fin grid0.N, win0_3.index t = ![q0.val, 0])

/-- What point t writes back is block t of the layer of the entry arrays. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x4096) hz, View.ld_unit_zero (S := S1x4096) hz]
  rw [pay]
  obtain ⟨e0, e1, e2, e3, e4, e5, e6, e7⟩ := idx_facts t
  funext j
  refine affineRelu_blocks (M := 4096) (K := 1024) (N := 4096) (M' := 512) (N' := 4096) (lhs V c) (rhs V c) (bias V c)
    (iblk0 V c 0 t) (iblk0 V c 1 t) (iblk0 V c 2 t) (fun y => ((cfg0.win 3).blk t).view.emb y) ?_ ?_ ?_ j
  · intro p q κ
    show V c main_arg0 (((cfg0.win 0).blk t).view.emb (ix2 p κ)) = V c main_arg0 (ix2 ((((cfg0.win 3).blk t).view.emb (ix2 p q)) 0) κ)
    refine congrArg (V c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * κ.val = κ.val; omega
  · intro p q κ
    show V c main_arg1 (((cfg0.win 1).blk t).view.emb (ix2 κ q)) = V c main_arg1 (ix2 κ ((((cfg0.win 3).blk t).view.emb (ix2 p q)) 1))
    refine congrArg (V c main_arg1) (funext fun a => Fin.ext ?_)
    match a with
    | ⟨0, _⟩ => show win0_1.index t (0 : Fin 2) * 1024 + 1 * κ.val = κ.val; omega
    | ⟨1, _⟩ => show win0_1.index t (1 : Fin 2) * 4096 + 1 * q.val = win0_3.index t (1 : Fin 2) * 4096 + 1 * q.val; omega
  · intro p q
    show V c main_v0 (((cfg0.win 2).blk t).view.emb (ix2 0 q)) = V c main_v0 (ix2 0 ((((cfg0.win 3).blk t).view.emb (ix2 p q)) 1))
    refine congrArg (V c main_v0) (funext fun a => Fin.ext ?_)
    match a with
    | ⟨0, _⟩ => show win0_2.index t (0 : Fin 2) * 1 + 1 * 0 = 0; omega
    | ⟨1, _⟩ => show win0_2.index t (1 : Fin 2) * 4096 + 1 * q.val = win0_3.index t (1 : Fin 2) * 4096 + 1 * q.val; omega

/-- An index of the output array is in point t's block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v1).slice (win0_3.rect t)).set ↔ _
  rw [View.set_slice_whole, Rect.mem_set_unit]
  exact Iff.rfl

/-- Every index of the output array is in some flushing point's block: row r lies in row block r / 512. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The array the region writes, after the region: the dense layer of the arrays it read. -/
theorem array_eq (c : Dev nD) : (dat0 V c).arrAt 3 cfg0.N = layer V c :=
  (dat0 V c).arrAt_eq_of_cover 3 (layer V c) (fun t _ => flushed_eq V c t) (cover)

end Cert.KernelIdeal.Layer1

end
-- ==== Proof.Layer2.lean ====
/-
  The second kernel launch, read as a value: whatever the buffers hold when the region is entered, the array it writes
  ends holding the dense layer max (h · w + b, 0) of the three arrays it reads.

  The grid is 4 × 4: point (n, m) writes the 1024 × 1024 output block at row block m and column block n. Its left block
  is row block m of the left array with the whole contracted axis, its right block column block n of the right array with
  the whole contracted axis, its bias block column block n of the bias row. So the block is the layer of the blocks, which
  is the layer of the arrays read through the output block's embedding; the sixteen blocks cover the array.
-/
import proofs.«140842_g84026740179090_cont_9to1_m_1088_17_alg».proof.Proof.Gen.KernelIdeal.Frame
import proofs.«140842_g84026740179090_cont_9to1_m_1088_17_alg».proof.Proof.Dense
import Idealize.ShloMosaic.Lib.Pipeline.Value

set_option maxRecDepth 16384

noncomputable section

namespace Cert.KernelIdeal.Layer2

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The three arrays the region reads, at their literal types. -/
abbrev lhs (c : Dev nD) : S4096x4096.Idx → EReal := V c main_v1
abbrev rhs (c : Dev nD) : S4096x4096.Idx → EReal := V c main_arg3
abbrev bias (c : Dev nD) : S1x4096.Idx → EReal := V c main_v2

/-- What the output array ends holding. -/
abbrev layer (c : Dev nD) : S4096x4096.Idx → EReal :=
  affineRelu (M := 4096) (K := 4096) (N := 4096) (lhs V c) (rhs V c) (bias V c)

theorem hz : (![0, 0] : Fin 2 → Nat) = fun _ => 0 := funext fun a => by fin_cases a <;> rfl

theorem plain : PlainDot.IsPlain dot_S1024x4096_S4096x1024_S1024x1024_1_0_0_1_n_n := ⟨rfl, rfl, rfl, rfl, rfl, rfl⟩

/-- The body's stored value is the dense layer of the blocks it loads: the cast of the left block to its own shape
    and the format changes are the identity, the matmul into zero plus the broadcast bias row is the affine map, then
    the maximum with zero. -/
theorem pay (x0 : Vec Ideal S1024x4096 .bf16) (x1 : Vec Ideal S4096x1024 .f32) (x2 : Vec Ideal S1x1024 .f32) :
    k1_pay1 (F := Ideal) x0 x1 x2 = affineRelu (M := 1024) (K := 4096) (N := 1024) x0 x1 x2 := by
  refine (congrArg (fun v : S1024x1024.Idx → EReal => fun i => max (v i) (Ideal.ofBits .f32 0x00000000#32))
    (matmul_add_bias dot_S1024x4096_S4096x1024_S1024x1024_1_0_0_1_n_n plain
      (shapeCast S1024x4096 x0 shapeCasts_S1024x4096_S1024x4096) x1 x2
      shapeCasts_S1x1024_S1x1024 broadcasts_S1x1024_S1024x1024)).trans ?_
  rw [shapeCast_self]
  rfl

/-- The index maps over the grid: the left block moves with the output's row block and sits at column block 0, the
    right block and the bias block sit at row block 0 and move with the output's column block. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 3 ∧ win1_3.index t (1 : Fin 2) ≤ 3 :=
  (by decide +kernel : ∀ t : Fin grid1.N, _)

/-- Every block of the output is some point's. -/
theorem idx_onto : ∀ (q0 q1 : Fin 4), ∃ t : Fin cfg1.N, win1_3.index t = ![q0.val, q1.val] :=
  (by decide +kernel : ∀ (q0 q1 : Fin 4), ∃ t : Fin grid1.N, win1_3.index t = ![q0.val, q1.val])

/-- What point t writes back is block t of the layer of the entry arrays. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero hz]
  simp only [View.ld_unit_zero (S := S1024x4096) hz, View.ld_unit_zero (S := S4096x1024) hz, View.ld_unit_zero (S := S1x1024) hz]
  rw [pay]
  obtain ⟨e0, e1, e2, e3, e4, e5, e6, e7⟩ := idx_facts t
  funext j
  refine affineRelu_blocks (M := 4096) (K := 4096) (N := 4096) (M' := 1024) (N' := 1024) (lhs V c) (rhs V c) (bias V c)
    (iblk1 V c 0 t) (iblk1 V c 1 t) (iblk1 V c 2 t) (fun y => ((cfg1.win 3).blk t).view.emb y) ?_ ?_ ?_ j
  · intro p q κ
    show V c main_v1 (((cfg1.win 0).blk t).view.emb (ix2 p κ)) = V c main_v1 (ix2 ((((cfg1.win 3).blk t).view.emb (ix2 p q)) 0) κ)
    refine congrArg (V c main_v1) (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 4096 + 1 * κ.val = κ.val; omega
  · intro p q κ
    show V c main_arg3 (((cfg1.win 1).blk t).view.emb (ix2 κ q)) = V c main_arg3 (ix2 κ ((((cfg1.win 3).blk t).view.emb (ix2 p q)) 1))
    refine congrArg (V c main_arg3) (funext fun a => Fin.ext ?_)
    match a with
    | ⟨0, _⟩ => show win1_1.index t (0 : Fin 2) * 4096 + 1 * κ.val = κ.val; omega
    | ⟨1, _⟩ => show win1_1.index t (1 : Fin 2) * 1024 + 1 * q.val = win1_3.index t (1 : Fin 2) * 1024 + 1 * q.val; omega
  · intro p q
    show V c main_v2 (((cfg1.win 2).blk t).view.emb (ix2 0 q)) = V c main_v2 (ix2 0 ((((cfg1.win 3).blk t).view.emb (ix2 p q)) 1))
    refine congrArg (V c main_v2) (funext fun a => Fin.ext ?_)
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega

/-- An index of the output array is in point t's block iff each coordinate is in the block's range on its axis. -/
theorem mem_blk (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index of the output array is in some flushing point's block: (r, s) lies in block (r / 1024, s / 1024). -/
theorem cover (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The array the region writes, after the region: the dense layer of the arrays it read. -/
theorem array_eq (c : Dev nD) : (dat1 V c).arrAt 3 cfg1.N = layer V c :=
  (dat1 V c).arrAt_eq_of_cover 3 (layer V c) (fun t _ => flushed_eq V c t) (cover)

end Cert.KernelIdeal.Layer2

end
-- ==== Proof.Layer3.lean ====
/-
  The third kernel launch, read as a value: whatever the buffers hold when the region is entered, the array it writes
  ends holding the dense layer h · w + b of the three arrays it reads (no maximum after this one).

  The grid is 1 × 4. At point t the output block is rows 1024·t … 1024·t + 1023 and all 1000 columns; the left block
  is the same rows of the left array with the whole contracted axis, the right block the whole right array, the bias
  block the whole bias row. So block t of the output is the layer of the blocks, which is the layer of the arrays read
  through the output block's embedding; the four blocks cover the array.
-/
import proofs.«140842_g84026740179090_cont_9to1_m_1088_17_alg».proof.Proof.Gen.KernelIdeal.Frame
import proofs.«140842_g84026740179090_cont_9to1_m_1088_17_alg».proof.Proof.Dense
import Idealize.ShloMosaic.Lib.Pipeline.Value

set_option maxRecDepth 16384

noncomputable section

namespace Cert.KernelIdeal.Layer3

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The three arrays the region reads, at their literal types. -/
abbrev lhs (c : Dev nD) : S4096x4096.Idx → EReal := V c main_v3
abbrev rhs (c : Dev nD) : S4096x1000.Idx → EReal := V c main_arg5
abbrev bias (c : Dev nD) : S1x1000.Idx → EReal := V c main_v4

/-- What the output array ends holding. -/
abbrev layer (c : Dev nD) : S4096x1000.Idx → EReal :=
  affine (M := 4096) (K := 4096) (N := 1000) (lhs V c) (rhs V c) (bias V c)

theorem hz : (![0, 0] : Fin 2 → Nat) = fun _ => 0 := funext fun a => by fin_cases a <;> rfl

theorem plain : PlainDot.IsPlain dot_S1024x4096_S4096x1000_S1024x1000_1_0_0_1_n_n := ⟨rfl, rfl, rfl, rfl, rfl, rfl⟩

/-- The body's stored value is the affine map of the blocks it loads: the cast of the left block to its own shape and
    the format change are the identity, and the matmul into zero plus the broadcast bias row is the affine map. -/
theorem pay (x0 : Vec Ideal S1024x4096 .bf16) (x1 : Vec Ideal S4096x1000 .f32) (x2 : Vec Ideal S1x1000 .f32) :
    k2_pay1 (F := Ideal) x0 x1 x2 = affine (M := 1024) (K := 4096) (N := 1000) x0 x1 x2 := by
  refine (matmul_add_bias dot_S1024x4096_S4096x1000_S1024x1000_1_0_0_1_n_n plain
      (shapeCast S1024x4096 x0 shapeCasts_S1024x4096_S1024x4096) x1 x2
      shapeCasts_S1x1000_S1x1000 broadcasts_S1x1000_S1024x1000).trans ?_
  rw [shapeCast_self]

/-- The index maps over the grid: the left block moves with the output's row block and sits at column block 0, the
    right block and the bias block sit at row block 0 and move with the output's column block (which is always 0). -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 3 ∧ win2_3.index t (1 : Fin 2) = 0 :=
  (by decide +kernel : ∀ t : Fin grid2.N, _)

/-- Every row block of the output is some point's. -/
theorem idx_onto : ∀ (q0 : Fin 4), ∃ t : Fin cfg2.N, win2_3.index t = ![q0.val, 0] :=
  (by decide +kernel : ∀ (q0 : Fin 4), ∃ t : Fin grid2.N, win2_3.index t = ![q0.val, 0])

/-- What point t writes back is block t of the layer of the entry arrays. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz]
  simp only [View.ld_unit_zero (S := S1024x4096) hz, View.ld_unit_zero (S := S4096x1000) hz, View.ld_unit_zero (S := S1x1000) hz]
  rw [pay]
  obtain ⟨e0, e1, e2, e3, e4, e5, e6, e7⟩ := idx_facts t
  funext j
  refine affine_blocks (M := 4096) (K := 4096) (N := 1000) (M' := 1024) (N' := 1000) (lhs V c) (rhs V c) (bias V c)
    (iblk2 V c 0 t) (iblk2 V c 1 t) (iblk2 V c 2 t) (fun y => ((cfg2.win 3).blk t).view.emb y) ?_ ?_ ?_ j
  · intro p q κ
    show V c main_v3 (((cfg2.win 0).blk t).view.emb (ix2 p κ)) = V c main_v3 (ix2 ((((cfg2.win 3).blk t).view.emb (ix2 p q)) 0) κ)
    refine congrArg (V c main_v3) (funext fun a => Fin.ext ?_)
    match a with
    | ⟨0, _⟩ => show win2_0.index t (0 : Fin 2) * 1024 + 1 * p.val = win2_3.index t (0 : Fin 2) * 1024 + 1 * p.val; omega
    | ⟨1, _⟩ => show win2_0.index t (1 : Fin 2) * 4096 + 1 * κ.val = κ.val; omega
  · intro p q κ
    show V c main_arg5 (((cfg2.win 1).blk t).view.emb (ix2 κ q)) = V c main_arg5 (ix2 κ ((((cfg2.win 3).blk t).view.emb (ix2 p q)) 1))
    refine congrArg (V c main_arg5) (funext fun a => Fin.ext ?_)
    match a with
    | ⟨0, _⟩ => show win2_1.index t (0 : Fin 2) * 4096 + 1 * κ.val = κ.val; omega
    | ⟨1, _⟩ => show win2_1.index t (1 : Fin 2) * 1000 + 1 * q.val = win2_3.index t (1 : Fin 2) * 1000 + 1 * q.val; omega
  · intro p q
    show V c main_v4 (((cfg2.win 2).blk t).view.emb (ix2 0 q)) = V c main_v4 (ix2 0 ((((cfg2.win 3).blk t).view.emb (ix2 p q)) 1))
    refine congrArg (V c main_v4) (funext fun a => Fin.ext ?_)
    match a with
    | ⟨0, _⟩ => show win2_2.index t (0 : Fin 2) * 1 + 1 * 0 = 0; omega
    | ⟨1, _⟩ => show win2_2.index t (1 : Fin 2) * 1000 + 1 * q.val = win2_3.index t (1 : Fin 2) * 1000 + 1 * q.val; omega

/-- An index of the output array is in point t's block iff each coordinate is in the block's range on its axis. -/
theorem mem_blk (t : Fin cfg2.N) (i : S4096x1000.Idx) :
    i ∈ ((cfg2.win 3).blk t).view.set ↔ ∀ a : Fin 2, win2_3.index t a * S1024x1000.size a ≤ (i a).val ∧ (i a).val < win2_3.index t a * S1024x1000.size a + S1024x1000.size a := by
  show i ∈ ((View.whole main_v5).slice (win2_3.rect t)).set ↔ _
  rw [View.set_slice_whole, Rect.mem_set_unit]
  exact Iff.rfl

/-- Every index of the output array is in some flushing point's block: row r lies in row block r / 1024. -/
theorem cover (i : S4096x1000.Idx) : ∃ t : Fin cfg2.N, (cfg2.win 3).flush t = true ∧ i ∈ ((cfg2.win 3).blk t).view.set := by
  have hi0 : (i 0).val < 4096 := (i 0).isLt
  have hi1 : (i 1).val < 1000 := (i 1).isLt
  obtain ⟨t, ht⟩ := idx_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1000 ≤ (i 1).val ∧ (i 1).val < win2_3.index t (1 : Fin 2) * 1000 + 1000; omega

/-- The array the region writes, after the region: the dense layer of the arrays it read. -/
theorem array_eq (c : Dev nD) : (dat2 V c).arrAt 3 cfg2.N = layer V c :=
  (dat2 V c).arrAt_eq_of_cover 3 (layer V c) (fun t _ => flushed_eq V c t) (cover)

end Cert.KernelIdeal.Layer3

end
-- ==== Proof.BiasRow.lean ====
/-
  A bias vector as a 1×N row, and the two ways the programs make the row from the vector: a reshape of the length-N
  vector to 1×N, and a broadcast of it into 1×N followed by a broadcast over the rows.
-/
import Idealize.ShloMosaic.PureOps.Ideal
import Idealize.ShloMosaic.Lib.ValueIdx
import Idealize.ShloMosaic.Lib.Pipeline.Value

noncomputable section

namespace Cert.Dense
open Idealize.ShloMosaic Idealize.ShloMosaic.ValueIdx

variable {M N : Nat}

/-- The length-N vector read as a 1×N row: entry (0, q) is entry q. -/
def row (b : (⟨1, ![N]⟩ : Shape).Idx → EReal) : (⟨2, ![1, N]⟩ : Shape).Idx → EReal := fun i => b (ix1 (i 1))

/-- Reshaping the vector to 1×N gives the row. -/
theorem reshape_row (b : (⟨1, ![N]⟩ : Shape).Idx → EReal) (h : (⟨1, ![N]⟩ : Shape).ShapeCasts ⟨2, ![1, N]⟩) :
    shapeCast ⟨2, ![1, N]⟩ b h = row b := by
  funext j
  refine (shapeCast_addUnit_apply ![N] b h j).trans ?_
  exact congrArg b (funext fun a => by match a with | ⟨0, _⟩ => rfl)

/-- Broadcasting the vector along axis 1 into 1×N and that over M rows, read at (p, q), is the row at (0, q). -/
theorem host_bias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = row b (ix2 0 q) := by
  refine (broadcastInDim_apply ![0, 1] h2 _ (ix2 p q) (ix2 0 q) ?_).trans ?_
  · intro a
    match a with
    | ⟨0, _⟩ => rfl
    | ⟨1, _⟩ =>
      show q.val = if N = 1 then 0 else q.val
      split_ifs with h
      · subst h; exact Fin.val_eq_zero q
      · rfl
  · refine broadcastInDim_apply ![1] h1 b (ix2 0 q) (ix1 q) ?_
    intro a
    match a with
    | ⟨0, _⟩ =>
      show q.val = if N = 1 then 0 else q.val
      split_ifs with h
      · subst h; exact Fin.val_eq_zero q
      · rfl

end Cert.Dense

end
-- ==== Proof.Mlp.lean ====
/-
  The whole network at its literal shapes: three dense layers, the first two followed by the maximum with zero,
  each bias vector used as a row.
-/
import proofs.«140842_g84026740179090_cont_9to1_m_1088_17_alg».proof.Proof.Dense
import proofs.«140842_g84026740179090_cont_9to1_m_1088_17_alg».proof.Proof.BiasRow

noncomputable section

namespace Cert.Dense
open Idealize.ShloMosaic

/-- out = (max (max (x · w1 + b1, 0) · w2 + b2, 0)) · w3 + b3 over 4096 rows: 1024 → 4096 → 4096 → 1000. -/
def mlp (x : (⟨2, ![4096, 1024]⟩ : Shape).Idx → EReal)
    (w1 : (⟨2, ![1024, 4096]⟩ : Shape).Idx → EReal) (b1 : (⟨1, ![4096]⟩ : Shape).Idx → EReal)
    (w2 : (⟨2, ![4096, 4096]⟩ : Shape).Idx → EReal) (b2 : (⟨1, ![4096]⟩ : Shape).Idx → EReal)
    (w3 : (⟨2, ![4096, 1000]⟩ : Shape).Idx → EReal) (b3 : (⟨1, ![1000]⟩ : Shape).Idx → EReal) :
    (⟨2, ![4096, 1000]⟩ : Shape).Idx → EReal :=
  affine (affineRelu (affineRelu x w1 (row b1)) w2 (row b2)) w3 (row b3)

end Cert.Dense

end
-- ==== Proof.KernelValue.lean ====
/-
  The kernel program's result array, walked back through the segment boundaries to the arguments.

  @main is: reshape b1 to a row; region 0; reshape b2 to a row; region 1; reshape b3 to a row; region 2. A reshape writes
  only its row buffer and a region writes only its output array, so every other buffer a later region reads still
  holds what it held before: an argument its launch contents, the previous region's output that region's dense layer.
  Composing the three layers gives the network `mlp` of the arguments.
-/
import proofs.«140842_g84026740179090_cont_9to1_m_1088_17_alg».proof.Proof.Gen.KernelIdeal.Frame
import proofs.«140842_g84026740179090_cont_9to1_m_1088_17_alg».proof.Proof.KernelRun
import proofs.«140842_g84026740179090_cont_9to1_m_1088_17_alg».proof.Proof.Layer1
import proofs.«140842_g84026740179090_cont_9to1_m_1088_17_alg».proof.Proof.Layer2
import proofs.«140842_g84026740179090_cont_9to1_m_1088_17_alg».proof.Proof.Layer3
import proofs.«140842_g84026740179090_cont_9to1_m_1088_17_alg».proof.Proof.Mlp
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Dense

variable (m : (ℓ : Loc nD τ sig) → Buf (Elt Ideal) ℓ) (ρ : Dev nD → PrngReg)

/-! ## The arguments at their literal types -/

abbrev ax (c : Dev nD) : S4096x1024.Idx → EReal := m ((c : Thread nD τ).loc main_arg0)
abbrev aw1 (c : Dev nD) : S1024x4096.Idx → EReal := m ((c : Thread nD τ).loc main_arg1)
abbrev ab1 (c : Dev nD) : S4096.Idx → EReal := m ((c : Thread nD τ).loc main_arg2)
abbrev aw2 (c : Dev nD) : S4096x4096.Idx → EReal := m ((c : Thread nD τ).loc main_arg3)
abbrev ab2 (c : Dev nD) : S4096.Idx → EReal := m ((c : Thread nD τ).loc main_arg4)
abbrev aw3 (c : Dev nD) : S4096x1000.Idx → EReal := m ((c : Thread nD τ).loc main_arg5)
abbrev ab3 (c : Dev nD) : S1000.Idx → EReal := m ((c : Thread nD τ).loc main_arg6)

/-- The first two layers' results. -/
abbrev hid1 (c : Dev nD) : S4096x4096.Idx → EReal :=
  affineRelu (M := 4096) (K := 1024) (N := 4096) (ax m c) (aw1 m c) (row (N := 4096) (ab1 m c))
abbrev hid2 (c : Dev nD) : S4096x4096.Idx → EReal :=
  affineRelu (M := 4096) (K := 4096) (N := 4096) (hid1 m c) (aw2 m c) (row (N := 4096) (ab2 m c))

/-! ## A host stretch leaves every buffer but the row it writes -/

theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W5_of_ne (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-! ## Region 0: entered with x, w1 and the row of b1 -/

theorem in1_lhs (c : Dev nD) : Layer1.lhs (V1 m ρ) c = ax m c :=
  (W1_of_ne m ρ c main_arg0 (by decide)).trans rfl

theorem in1_rhs (c : Dev nD) : Layer1.rhs (V1 m ρ) c = aw1 m c :=
  (W1_of_ne m ρ c main_arg1 (by decide)).trans rfl

theorem in1_bias (c : Dev nD) : Layer1.bias (V1 m ρ) c = row (N := 4096) (ab1 m c) := by
  have e : (V1 m ρ c main_v0 : S1x4096.Idx → EReal) = shapeCast S1x4096 (ab1 m c) shapeCasts_S4096_S1x4096 := by
    show StableHlo.after hostOps0 (W0 m ρ c) (Proc.devRef .tc main_v0) = _
    after_results
    rfl
  exact e.trans (reshape_row (N := 4096) (ab1 m c) shapeCasts_S4096_S1x4096)

/-- Region 0's output array after the region. -/
theorem out1 (c : Dev nD) : (dat0 (V1 m ρ) c).arrAt 3 cfg0.N = hid1 m c := by
  rw [Layer1.array_eq]
  show affineRelu (M := 4096) (K := 1024) (N := 4096) (Layer1.lhs (V1 m ρ) c) (Layer1.rhs (V1 m ρ) c) (Layer1.bias (V1 m ρ) c) = _
  rw [in1_lhs, in1_rhs, in1_bias]

/-! ## Region 1: entered with the first layer's result, w2 and the row of b2 -/

theorem in2_lhs (c : Dev nD) : Layer2.lhs (V3 m ρ) c = hid1 m c :=
  (W3_of_ne m ρ c main_v1 (by decide)).trans ((W2_arr m ρ c 3).trans (out1 m ρ c))

theorem in2_rhs (c : Dev nD) : Layer2.rhs (V3 m ρ) c = aw2 m c :=
  (W3_of_ne m ρ c main_arg3 (by decide)).trans ((W2_of_ne m ρ c main_arg3 (by decide)).trans
    ((W1_of_ne m ρ c main_arg3 (by decide)).trans rfl))

theorem in2_bias (c : Dev nD) : Layer2.bias (V3 m ρ) c = row (N := 4096) (ab2 m c) := by
  have e : (V3 m ρ c main_v2 : S1x4096.Idx → EReal)
      = shapeCast S1x4096 (W2 m ρ c (Proc.devRef .tc main_arg4) : S4096.Idx → EReal) shapeCasts_S4096_S1x4096 := by
    show StableHlo.after hostOps1 (W2 m ρ c) (Proc.devRef .tc main_v2) = _
    after_results
    rfl
  have e' : (W2 m ρ c (Proc.devRef .tc main_arg4) : S4096.Idx → EReal) = ab2 m c :=
    (W2_of_ne m ρ c main_arg4 (by decide)).trans ((W1_of_ne m ρ c main_arg4 (by decide)).trans rfl)
  exact e.trans ((congrArg (fun v : S4096.Idx → EReal => shapeCast S1x4096 v shapeCasts_S4096_S1x4096) e').trans
    (reshape_row (N := 4096) (ab2 m c) shapeCasts_S4096_S1x4096))

/-- Region 1's output array after the region. -/
theorem out2 (c : Dev nD) : (dat1 (V3 m ρ) c).arrAt 3 cfg1.N = hid2 m c := by
  rw [Layer2.array_eq]
  show affineRelu (M := 4096) (K := 4096) (N := 4096) (Layer2.lhs (V3 m ρ) c) (Layer2.rhs (V3 m ρ) c) (Layer2.bias (V3 m ρ) c) = _
  rw [in2_lhs, in2_rhs, in2_bias]

/-! ## Region 2: entered with the second layer's result, w3 and the row of b3 -/

theorem in3_lhs (c : Dev nD) : Layer3.lhs (V5 m ρ) c = hid2 m c :=
  (W5_of_ne m ρ c main_v3 (by decide)).trans ((W4_arr m ρ c 3).trans (out2 m ρ c))

theorem in3_rhs (c : Dev nD) : Layer3.rhs (V5 m ρ) c = aw3 m c :=
  (W5_of_ne m ρ c main_arg5 (by decide)).trans ((W4_of_ne m ρ c main_arg5 (by decide)).trans
    ((W3_of_ne m ρ c main_arg5 (by decide)).trans ((W2_of_ne m ρ c main_arg5 (by decide)).trans
      ((W1_of_ne m ρ c main_arg5 (by decide)).trans rfl))))

theorem in3_bias (c : Dev nD) : Layer3.bias (V5 m ρ) c = row (N := 1000) (ab3 m c) := by
  have e : (V5 m ρ c main_v4 : S1x1000.Idx → EReal)
      = shapeCast S1x1000 (W4 m ρ c (Proc.devRef .tc main_arg6) : S1000.Idx → EReal) shapeCasts_S1000_S1x1000 := by
    show StableHlo.after hostOps2 (W4 m ρ c) (Proc.devRef .tc main_v4) = _
    after_results
    rfl
  have e' : (W4 m ρ c (Proc.devRef .tc main_arg6) : S1000.Idx → EReal) = ab3 m c :=
    (W4_of_ne m ρ c main_arg6 (by decide)).trans ((W3_of_ne m ρ c main_arg6 (by decide)).trans
      ((W2_of_ne m ρ c main_arg6 (by decide)).trans ((W1_of_ne m ρ c main_arg6 (by decide)).trans rfl)))
  exact e.trans ((congrArg (fun v : S1000.Idx → EReal => shapeCast S1x1000 v shapeCasts_S1000_S1x1000) e').trans
    (reshape_row (N := 1000) (ab3 m c) shapeCasts_S1000_S1x1000))

/-- The result array at the last boundary: the network of the arguments. -/
theorem result (c : Dev nD) :
    W6 m ρ c (Proc.devRef .tc main_v5) = mlp (ax m c) (aw1 m c) (ab1 m c) (aw2 m c) (ab2 m c) (aw3 m c) (ab3 m c) := by
  refine (W6_arr m ρ c 3).trans ?_
  rw [Layer3.array_eq]
  show affine (M := 4096) (K := 4096) (N := 1000) (Layer3.lhs (V5 m ρ) c) (Layer3.rhs (V5 m ρ) c) (Layer3.bias (V5 m ρ) c) = _
  rw [in3_lhs, in3_rhs, in3_bias]
  rfl

/-- The kernel program's run with its result named: every weakly fair execution terminates, nothing faulting, with
    the result array at the network of the arguments and the arguments as launched. -/
theorem run : θ_run defs (onTc (τ := τ) (main (F := Ideal))) ⟨m, fun _ => 0, ρ⟩ (fun r => ∀ c : Dev nD,
      r.2.mem ((c.tc : Thread nD τ).loc main_v5) = mlp (ax m c) (aw1 m c) (ab1 m c) (aw2 m c) (ab2 m c) (aw3 m c) (ab3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Run.run_named m ρ)

end Cert.KernelIdeal.Value

end
-- ==== Proof.RefValue.lean ====
/-
  The reference program's result is the network `mlp` of its arguments: each `dot_general` plus the bias broadcast
  over the rows is the affine map with the bias as a row, and the maximum with the broadcast zero follows the first two.
-/
import proofs.«140842_g84026740179090_cont_9to1_m_1088_17_alg».proof.Proof.Gen.ReferenceIdeal.Run
import proofs.«140842_g84026740179090_cont_9to1_m_1088_17_alg».proof.Proof.Mlp

noncomputable section

namespace Cert.ReferenceIdeal.RefValue

open Idealize.ShloMosaic Idealize.ShloMosaic.ValueIdx Cert.ReferenceIdeal Cert.ReferenceIdeal.Gen Cert.Dense

theorem plain1 : PlainDot.IsPlain dot_S4096x1024_S1024x4096_S4096x4096_1_0_0_1_n_n := ⟨rfl, rfl, rfl, rfl, rfl, rfl⟩
theorem plain2 : PlainDot.IsPlain dot_S4096x4096_S4096x4096_S4096x4096_1_0_0_1_n_n := ⟨rfl, rfl, rfl, rfl, rfl, rfl⟩
theorem plain3 : PlainDot.IsPlain dot_S4096x4096_S4096x1000_S4096x1000_1_0_0_1_n_n := ⟨rfl, rfl, rfl, rfl, rfl, rfl⟩

/-- A hidden layer of the reference: the product, plus the bias broadcast into a row and over the rows, then the
    maximum with the broadcast zero. -/
theorem hidden {K : Nat} (d : DotDims ⟨2, ![4096, K]⟩ ⟨2, ![K, 4096]⟩ ⟨2, ![4096, 4096]⟩) (hd : PlainDot.IsPlain d)
    (l : FVec Ideal ⟨2, ![4096, K]⟩ .f32) (r : FVec Ideal ⟨2, ![K, 4096]⟩ .f32) (b : FVec Ideal S4096 .f32) :
    maximumf (addf (Host.dotGeneral d none l r)
        (broadcastInDim S4096x4096 ![0, 1] bcast_S1x4096_S4096x4096_0_1 (broadcastInDim S1x4096 ![1] bcast_S4096_S1x4096_1 b)))
      (broadcastInDim S4096x4096 ![] bcast_S_S4096x4096 (constant (F := Ideal) S_ .f32 0x00000000#32))
    = affineRelu (M := 4096) (K := K) (N := 4096) l r (row b) := by
  rw [dotGeneral_add_bias d hd l r (row b) _ (fun p q => host_bias_apply b bcast_S4096_S1x4096_1 bcast_S1x4096_S4096x4096_0_1 p q)]
  rfl

/-- The reference run's result term is the network of the arguments. -/
theorem result_eq (x : FVec Ideal S4096x1024 .f32) (w1 : FVec Ideal S1024x4096 .f32) (b1 : FVec Ideal S4096 .f32)
    (w2 : FVec Ideal S4096x4096 .f32) (b2 : FVec Ideal S4096 .f32) (w3 : FVec Ideal S4096x1000 .f32) (b3 : FVec Ideal S1000 .f32) :
    addf (Host.dotGeneral dot_S4096x4096_S4096x1000_S4096x1000_1_0_0_1_n_n none (maximumf (addf (Host.dotGeneral dot_S4096x4096_S4096x4096_S4096x4096_1_0_0_1_n_n none (maximumf (addf (Host.dotGeneral dot_S4096x1024_S1024x4096_S4096x4096_1_0_0_1_n_n none x w1) (broadcastInDim S4096x4096 ![0, 1] bcast_S1x4096_S4096x4096_0_1 (broadcastInDim S1x4096 ![1] bcast_S4096_S1x4096_1 b1))) (broadcastInDim S4096x4096 ![] bcast_S_S4096x4096 (constant (F := Ideal) S_ .f32 0x00000000#32))) w2) (broadcastInDim S4096x4096 ![0, 1] bcast_S1x4096_S4096x4096_0_1 (broadcastInDim S1x4096 ![1] bcast_S4096_S1x4096_1 b2))) (broadcastInDim S4096x4096 ![] bcast_S_S4096x4096 (constant (F := Ideal) S_ .f32 0x00000000#32))) w3) (broadcastInDim S4096x1000 ![0, 1] bcast_S1x1000_S4096x1000_0_1 (broadcastInDim S1x1000 ![1] bcast_S1000_S1x1000_1 b3))
    = mlp x w1 b1 w2 b2 w3 b3 := by
  rw [hidden dot_S4096x1024_S1024x4096_S4096x4096_1_0_0_1_n_n plain1 x w1 b1]
  rw [hidden dot_S4096x4096_S4096x4096_S4096x4096_1_0_0_1_n_n plain2 _ w2 b2]
  rw [dotGeneral_add_bias dot_S4096x4096_S4096x1000_S4096x1000_1_0_0_1_n_n plain3 _ w3 (row b3) _
    (fun p q => host_bias_apply b3 bcast_S1000_S1x1000_1 bcast_S1x1000_S4096x1000_0_1 p q)]
  rfl

end Cert.ReferenceIdeal.RefValue

end
-- ==== Proof.lean ====
/-
  A three-layer perceptron, 1024 → 4096 → 4096 → 1000 over 4096 rows, as three tiled matmul kernels with the bias add
  and the maximum with zero fused in, against the same network written with three matrix products.

  On the extended reals a change of float format is the identity, a matmul into a zero accumulator and a dot_general are
  both the sum over the contracted coordinate of the products, and sums may be taken in any order. So every layer is
  out (p, q) = Σ_κ in (p, κ) · w (κ, q) + b (q), followed for the first two layers by the maximum with zero, on both
  sides; no cancellation or distribution is used, so the finiteness of the inputs is not needed.

  Kernel side: each kernel launch's output array, whatever the buffers held when it was entered, ends holding that layer of
  the arrays it reads (Layer1, Layer2, Layer3: block t of the output is the layer of the blocks point t loads, and the
  blocks tile the array); the run's last segment boundary is walked back to the arguments (KernelValue). Reference
  side: the run's result term is rewritten layer by layer (RefValue). Both are the one function `Cert.Dense.mlp` of the
  arguments. The three frames are the generated ones; the idealization rewrote nothing, so `preserves` is `True`.
-/
import proofs.«140842_g84026740179090_cont_9to1_m_1088_17_alg».proof.Defs
import proofs.«140842_g84026740179090_cont_9to1_m_1088_17_alg».proof.Proof.Gen.Kernel
import proofs.«140842_g84026740179090_cont_9to1_m_1088_17_alg».proof.Proof.Gen.Kernel.Frame
import proofs.«140842_g84026740179090_cont_9to1_m_1088_17_alg».proof.Proof.Gen.KernelIdeal
import proofs.«140842_g84026740179090_cont_9to1_m_1088_17_alg».proof.Proof.Gen.KernelIdeal.Frame
import proofs.«140842_g84026740179090_cont_9to1_m_1088_17_alg».proof.Proof.Gen.ReferenceIdeal
import proofs.«140842_g84026740179090_cont_9to1_m_1088_17_alg».proof.Proof.Gen.ReferenceIdeal.Run
import proofs.«140842_g84026740179090_cont_9to1_m_1088_17_alg».proof.Proof.Gen.Pre_finite_inputs
import proofs.«140842_g84026740179090_cont_9to1_m_1088_17_alg».proof.Proof.KernelValue
import proofs.«140842_g84026740179090_cont_9to1_m_1088_17_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the network `mlp` of the arguments in
    their result arrays and the arguments unchanged. -/
theorem algebraic : Cert.algebraic_KernelIdeal_ReferenceIdeal := by
  intro m ρ m' ρ' _ hagree
  refine ⟨fun c => Cert.Dense.mlp (Cert.KernelIdeal.Value.ax m c) (Cert.KernelIdeal.Value.aw1 m c) (Cert.KernelIdeal.Value.ab1 m c)
      (Cert.KernelIdeal.Value.aw2 m c) (Cert.KernelIdeal.Value.ab2 m c) (Cert.KernelIdeal.Value.aw3 m c) (Cert.KernelIdeal.Value.ab3 m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.ReferenceIdeal.RefValue.result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
